-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4000000x3 : Shape := ⟨2, ![4000000, 3]⟩
abbrev S_ : Shape := ⟨0, ![]⟩

class Facts : Prop where
  bcast_S_S4000000x3 : S_.BroadcastsInDim S4000000x3 (![] : Fin 0 → Fin S4000000x3.rank)
  reducesTo_S4000000x3_S_d0_1 : S4000000x3.ReducesTo [0, 1] S_
  h_S_ : 0 < S_.numel

variable [Facts]

def fn {F : FTy → Type} [FloatOps F] (main_arg0 : FVec F S4000000x3 .f32) : IVec S_ 1 :=
  let main_v0 : FVec F S4000000x3 .f32 := Host.absf main_arg0
  let main_cst : FVec F S_ .f32 := constant S_ .f32 0x7F800000#32
  let main_v1 : FVec F S4000000x3 .f32 := broadcastInDim S4000000x3 ![] bcast_S_S4000000x3 main_cst
  let main_v2 : IVec S4000000x3 1 := cmpf .olt main_v0 main_v1
  let main_c : IVec S_ 1 := constantI S_ 1 1#1
  let main_v3 : IVec S_ 1 := (fun x v => Host.reduce IntOp.andi x v reducesTo_S4000000x3_S_d0_1 h_S_) main_v2 main_c
  main_v3
-- ==== Kernel.lean ====
abbrev S4000000x3 : Shape := ⟨2, ![4000000, 3]⟩
abbrev S4000000x9 : Shape := ⟨2, ![4000000, 9]⟩
abbrev S8000x3 : Shape := ⟨2, ![8000, 3]⟩
abbrev S8000x9 : Shape := ⟨2, ![8000, 9]⟩
abbrev S8000x1 : Shape := ⟨2, ![8000, 1]⟩
abbrev S4000000x3x3 : Shape := ⟨3, ![4000000, 3, 3]⟩

abbrev nBuf : Space → Nat
  | .hbm => 3
  | .vmem => 4
  | .smem => 0
  | _ => 0

abbrev bufTy : (tb : Table) → Fin (tcTables nBuf tb) → BufTy
  | .hbm, ⟨0, _⟩ => ⟨S4000000x3, .f32⟩
  | .hbm, ⟨1, _⟩ => ⟨S4000000x9, .f32⟩
  | .hbm, ⟨2, _⟩ => ⟨S4000000x3x3, .f32⟩
  | .local _ .vmem, ⟨0, _⟩ => ⟨S8000x3, .f32⟩
  | .local _ .vmem, ⟨1, _⟩ => ⟨S8000x3, .f32⟩
  | .local _ .vmem, ⟨2, _⟩ => ⟨S8000x9, .f32⟩
  | .local _ .vmem, ⟨3, _⟩ => ⟨S8000x9, .f32⟩
  | _, _ => ⟨S4000000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![500], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x9 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S8000x3_S8000x3_0_0 : ∀ a, (![0, 0] : Fin 2 → Nat) a + S8000x3.size a ≤ S8000x3.size a
  h_S8000x3 : 0 < S8000x3.numel
  slices_S8000x3_o0_0_S8000x1 : S8000x3.Slices ![0, 0] S8000x1
  slices_S8000x3_o0_1_S8000x1 : S8000x3.Slices ![0, 1] S8000x1
  slices_S8000x3_o0_2_S8000x1 : S8000x3.Slices ![0, 2] S8000x1
  concatenates_S8000x1_S8000x1_S8000x1_S8000x1_S8000x1_S8000x1_S8000x1_S8000x1_S8000x1_S8000x9_d1 : Shape.Concatenates [S8000x1, S8000x1, S8000x1, S8000x1, S8000x1, S8000x1, S8000x1, S8000x1, S8000x1] S8000x9 1
  inb_S8000x9_S8000x9_0_0 : ∀ a, (![0, 0] : Fin 2 → Nat) a + S8000x9.size a ≤ S8000x9.size a
  h_S8000x9 : 0 < S8000x9.numel
  shapeCasts_S4000000x9_S4000000x3x3 : S4000000x9.ShapeCasts S4000000x3x3
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x3.size a ≤ S4000000x3.size a
  hwx0_0 : ∀ i : grid0.Coords, EltTy.bits .f32 = 32 ∨ (Rect.block (s := S4000000x3) S8000x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x9.size a ≤ S4000000x9.size a
  hwx0_1 : ∀ i : grid0.Coords, EltTy.bits .f32 = 32 ∨ (Rect.block (s := S4000000x9) S8000x9.size (cc0_transform_1 i) (hinb0_1 i)).WholeWords (EltTy.packing .f32)

variable [Facts₀]

abbrev win0_0 : Pipeline.Window sig grid0 :=
  Pipeline.Window.ofSpec (Memref.whole main_arg0) S8000x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S8000x9.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S4000000x3 : Shape := ⟨2, ![4000000, 3]⟩
abbrev S4000000x1 : Shape := ⟨2, ![4000000, 1]⟩
abbrev S4000000 : Shape := ⟨1, ![4000000]⟩
abbrev S_ : Shape := ⟨0, ![]⟩
abbrev S4000000x1x3 : Shape := ⟨3, ![4000000, 1, 3]⟩
abbrev S4000000x3x3 : Shape := ⟨3, ![4000000, 3, 3]⟩

abbrev nBuf : Space → Nat
  | .hbm => 77
  | .vmem => 0
  | .smem => 0
  | _ => 0

abbrev bufTy : (tb : Table) → Fin (tcTables nBuf tb) → BufTy
  | .hbm, ⟨0, _⟩ => ⟨S4000000x3, .f32⟩
  | .hbm, ⟨1, _⟩ => ⟨S4000000x1, .f32⟩
  | .hbm, ⟨2, _⟩ => ⟨S4000000, .f32⟩
  | .hbm, ⟨3, _⟩ => ⟨S4000000x1, .f32⟩
  | .hbm, ⟨4, _⟩ => ⟨S4000000, .f32⟩
  | .hbm, ⟨5, _⟩ => ⟨S4000000x1, .f32⟩
  | .hbm, ⟨6, _⟩ => ⟨S4000000, .f32⟩
  | .hbm, ⟨7, _⟩ => ⟨S4000000, .f32⟩
  | .hbm, ⟨8, _⟩ => ⟨S4000000, .f32⟩
  | .hbm, ⟨9, _⟩ => ⟨S4000000, .f32⟩
  | .hbm, ⟨10, _⟩ => ⟨S_, .f32⟩
  | .hbm, ⟨11, _⟩ => ⟨S4000000, .f32⟩
  | .hbm, ⟨12, _⟩ => ⟨S4000000, .f32⟩
  | .hbm, ⟨13, _⟩ => ⟨S4000000, .f32⟩
  | .hbm, ⟨14, _⟩ => ⟨S4000000, .f32⟩
  | .hbm, ⟨15, _⟩ => ⟨S_, .f32⟩
  | .hbm, ⟨16, _⟩ => ⟨S4000000, .f32⟩
  | .hbm, ⟨17, _⟩ => ⟨S4000000, .f32⟩
  | .hbm, ⟨18, _⟩ => ⟨S_, .f32⟩
  | .hbm, ⟨19, _⟩ => ⟨S4000000, .f32⟩
  | .hbm, ⟨20, _⟩ => ⟨S4000000, .f32⟩
  | .hbm, ⟨21, _⟩ => ⟨S4000000, .f32⟩
  | .hbm, ⟨22, _⟩ => ⟨S_, .f32⟩
  | .hbm, ⟨23, _⟩ => ⟨S4000000, .f32⟩
  | .hbm, ⟨24, _⟩ => ⟨S4000000, .f32⟩
  | .hbm, ⟨25, _⟩ => ⟨S_, .f32⟩
  | .hbm, ⟨26, _⟩ => ⟨S4000000, .f32⟩
  | .hbm, ⟨27, _⟩ => ⟨S4000000, .f32⟩
  | .hbm, ⟨28, _⟩ => ⟨S4000000, .f32⟩
  | .hbm, ⟨29, _⟩ => ⟨S4000000, .f32⟩
  | .hbm, ⟨30, _⟩ => ⟨S_, .f32⟩
  | .hbm, ⟨31, _⟩ => ⟨S4000000, .f32⟩
  | .hbm, ⟨32, _⟩ => ⟨S4000000, .f32⟩
  | .hbm, ⟨33, _⟩ => ⟨S4000000, .f32⟩
  | .hbm, ⟨34, _⟩ => ⟨S4000000, .f32⟩
  | .hbm, ⟨35, _⟩ => ⟨S4000000, .f32⟩
  | .hbm, ⟨36, _⟩ => ⟨S4000000, .f32⟩
  | .hbm, ⟨37, _⟩ => ⟨S_, .f32⟩
  | .hbm, ⟨38, _⟩ => ⟨S4000000, .f32⟩
  | .hbm, ⟨39, _⟩ => ⟨S4000000, .f32⟩
  | .hbm, ⟨40, _⟩ => ⟨S4000000, .f32⟩
  | .hbm, ⟨41, _⟩ => ⟨S_, .f32⟩
  | .hbm, ⟨42, _⟩ => ⟨S4000000, .f32⟩
  | .hbm, ⟨43, _⟩ => ⟨S4000000, .f32⟩
  | .hbm, ⟨44, _⟩ => ⟨S4000000, .f32⟩
  | .hbm, ⟨45, _⟩ => ⟨S4000000, .f32⟩
  | .hbm, ⟨46, _⟩ => ⟨S4000000, .f32⟩
  | .hbm, ⟨47, _⟩ => ⟨S4000000, .f32⟩
  | .hbm, ⟨48, _⟩ => ⟨S_, .f32⟩
  | .hbm, ⟨49, _⟩ => ⟨S4000000, .f32⟩
  | .hbm, ⟨50, _⟩ => ⟨S4000000, .f32⟩
  | .hbm, ⟨51, _⟩ => ⟨S4000000, .f32⟩
  | .hbm, ⟨52, _⟩ => ⟨S4000000, .f32⟩
  | .hbm, ⟨53, _⟩ => ⟨S4000000, .f32⟩
  | .hbm, ⟨54, _⟩ => ⟨S4000000, .f32⟩
  | .hbm, ⟨55, _⟩ => ⟨S4000000, .f32⟩
  | .hbm, ⟨56, _⟩ => ⟨S4000000, .f32⟩
  | .hbm, ⟨57, _⟩ => ⟨S_, .f32⟩
  | .hbm, ⟨58, _⟩ => ⟨S4000000, .f32⟩
  | .hbm, ⟨59, _⟩ => ⟨S_, .f32⟩
  | .hbm, ⟨60, _⟩ => ⟨S4000000, .f32⟩
  | .hbm, ⟨61, _⟩ => ⟨S4000000x1, .f32⟩
  | .hbm, ⟨62, _⟩ => ⟨S4000000x1, .f32⟩
  | .hbm, ⟨63, _⟩ => ⟨S4000000x1, .f32⟩
  | .hbm, ⟨64, _⟩ => ⟨S4000000x3, .f32⟩
  | .hbm, ⟨65, _⟩ => ⟨S4000000x1, .f32⟩
  | .hbm, ⟨66, _⟩ => ⟨S4000000x1, .f32⟩
  | .hbm, ⟨67, _⟩ => ⟨S4000000x1, .f32⟩
  | .hbm, ⟨68, _⟩ => ⟨S4000000x3, .f32⟩
  | .hbm, ⟨69, _⟩ => ⟨S4000000x1, .f32⟩
  | .hbm, ⟨70, _⟩ => ⟨S4000000x1, .f32⟩
  | .hbm, ⟨71, _⟩ => ⟨S4000000x1, .f32⟩
  | .hbm, ⟨72, _⟩ => ⟨S4000000x3, .f32⟩
  | .hbm, ⟨73, _⟩ => ⟨S4000000x1x3, .f32⟩
  | .hbm, ⟨74, _⟩ => ⟨S4000000x1x3, .f32⟩
  | .hbm, ⟨75, _⟩ => ⟨S4000000x1x3, .f32⟩
  | .hbm, ⟨76, _⟩ => ⟨S4000000x3x3, .f32⟩
  | _, _ => ⟨S4000000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_cst : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_cst_0 : Ref sig .tc := ⟨.hbm, 15, rfl⟩
abbrev main_v13 : Ref sig .tc := ⟨.hbm, 16, rfl⟩
abbrev main_v14 : Ref sig .tc := ⟨.hbm, 17, rfl⟩
abbrev main_cst_1 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_cst_2 : Ref sig .tc := ⟨.hbm, 22, rfl⟩
abbrev main_v18 : Ref sig .tc := ⟨.hbm, 23, rfl⟩
abbrev main_v19 : Ref sig .tc := ⟨.hbm, 24, rfl⟩
abbrev main_cst_3 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_4 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_cst_5 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_cst_6 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_cst_7 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_cst_8 : Ref sig .tc := ⟨.hbm, 57, rfl⟩
abbrev main_v47 : Ref sig .tc := ⟨.hbm, 58, rfl⟩
abbrev main_cst_9 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩

abbrev nD : Nat := 1
abbrev τ : Topo := Topo.v7x

variable {F : FTy → Type} [FloatOps F]

class Facts₀ : Prop where
  slices_S4000000x3_S4000000x1_0_0 : S4000000x3.Slices ![0, 0] S4000000x1
  shapeCasts_S4000000x1_S4000000 : S4000000x1.ShapeCasts S4000000
  slices_S4000000x3_S4000000x1_0_1 : S4000000x3.Slices ![0, 1] S4000000x1
  slices_S4000000x3_S4000000x1_0_2 : S4000000x3.Slices ![0, 2] S4000000x1
  bcast_S_S4000000 : S_.BroadcastsInDim S4000000 (![] : Fin 0 → Fin S4000000.rank)
  bcast_S4000000_S4000000x1_0 : S4000000.BroadcastsInDim S4000000x1 (![0] : Fin 1 → Fin S4000000x1.rank)
  concatenates_S4000000x1_S4000000x1_S4000000x1_S4000000x3_d1 : Shape.Concatenates [S4000000x1, S4000000x1, S4000000x1] S4000000x3 1
  bcast_S4000000x3_S4000000x1x3_0_2 : S4000000x3.BroadcastsInDim S4000000x1x3 (![0, 2] : Fin 2 → Fin S4000000x1x3.rank)
  concatenates_S4000000x1x3_S4000000x1x3_S4000000x1x3_S4000000x3x3_d1 : Shape.Concatenates [S4000000x1x3, S4000000x1x3, S4000000x1x3] S4000000x3x3 1

variable [Facts₀]

class Facts : Prop extends Facts₀ where

variable [Facts]
-- ==== Proof.ExpMap.lean ====
/-
  The exponential map of SE(2) with regularised series coefficients, one matrix entry at a time, on the extended reals.

  A twist (x, y, w) has angle θ = √(w·w). With ε the single-precision number nearest 1e-5, the three coefficients are
    A = sin θ / (θ + ε),   B = (1 − cos θ) / (w·w + ε),   C = (1 − A) / (w·w + ε),
  the rotation block is  [[1 − B·w², −A·w], [A·w, 1 − B·w²]],
  the translation column is  ((1 − C·w²)·x + (−B·w)·y,  (B·w)·x + (1 − C·w²)·y),
  and the last row is (0, 0, 1). Read row-major, the nine entries of the 3×3 matrix are `entry x y w`.
  Every operation is the extended reals' own (a quotient is `Ideal.div`, the root and the two circular functions are
  `Ideal.sqrt`, `Ideal.sin`, `Ideal.cos`), so the definitions below hold at every extended real, infinite ones included,
  and no finiteness of the twist is used anywhere.
-/
import Idealize.ShloMosaic.PureOps.Ideal
import Idealize.ShloMosaic.Lib.ValueIdx
import Idealize.ShloMosaic.Lib.IdealHost

noncomputable section

namespace Cert.ExpMap

open Idealize.ShloMosaic Idealize.ShloMosaic.ValueIdx

/-- The regulariser ε: the single-precision number nearest 1e-5, as the exact value of its pattern. -/
def eps : EReal := Ideal.ofBits .f32 0x3727C5AC#32
/-- The pattern of 1.0. -/
def one : EReal := Ideal.ofBits .f32 0x3F800000#32
/-- The pattern of +0.0. -/
def zero : EReal := Ideal.ofBits .f32 0x00000000#32

/-- θ² = w·w. -/
def sq (w : EReal) : EReal := w * w
/-- θ = √(w·w). -/
def ang (w : EReal) : EReal := Ideal.sqrt (sq w)
/-- A = sin θ / (θ + ε). -/
def cA (w : EReal) : EReal := Ideal.div (Ideal.sin (ang w)) (ang w + eps)
/-- B = (1 − cos θ) / (θ² + ε). -/
def cB (w : EReal) : EReal := Ideal.div (one - Ideal.cos (ang w)) (sq w + eps)
/-- C = (1 − A) / (θ² + ε). -/
def cC (w : EReal) : EReal := Ideal.div (one - cA w) (sq w + eps)

/-- The rotation block's diagonal, 1 − B·θ². -/
def rotDiag (w : EReal) : EReal := one - cB w * sq w
/-- Its upper off-diagonal entry, (−A)·w. -/
def rotUpper (w : EReal) : EReal := (-(cA w)) * w
/-- Its lower off-diagonal entry, A·w. -/
def rotLower (w : EReal) : EReal := cA w * w
/-- The diagonal of the matrix applied to the translation, 1 − C·θ². -/
def trDiag (w : EReal) : EReal := one - cC w * sq w
/-- Its upper off-diagonal entry, (−B)·w. -/
def trUpper (w : EReal) : EReal := (-(cB w)) * w
/-- Its lower off-diagonal entry, B·w. -/
def trLower (w : EReal) : EReal := cB w * w
/-- The first translation component. -/
def trX (x y w : EReal) : EReal := trDiag w * x + trUpper w * y
/-- The second translation component. -/
def trY (x y w : EReal) : EReal := trLower w * x + trDiag w * y

/-- The nine entries of the 3×3 matrix of the twist (x, y, w), row-major. -/
def entry (x y w : EReal) : Fin 9 → EReal :=
  ![rotDiag w, rotUpper w, trX x y w, rotLower w, rotDiag w, trY x y w, zero, zero, one]

/-- The zero pattern is the extended real 0, so subtracting from it negates: one side of the comparison spells a
    negation `0 − a`, the other `−a`. -/
theorem zero_sub (a : EReal) : zero - a = -a := by
  unfold zero
  rw [Ideal.ofBits_zero_f32, _root_.zero_sub]

/-- The whole result as a [rows, 9] array: row r holds the nine entries of the twist in row r of the input. -/
def flat {n : Nat} (uv : (⟨2, ![n, 3]⟩ : Shape).Idx → EReal) : (⟨2, ![n, 9]⟩ : Shape).Idx → EReal :=
  fun i => entry (uv (ix2 (i 0) 0)) (uv (ix2 (i 0) 1)) (uv (ix2 (i 0) 2)) (i 1)

/-- The whole result as a [rows, 3, 3] array: entry (a, b) of row r's matrix is the row-major entry 3·a + b. -/
def mat {n : Nat} (uv : (⟨2, ![n, 3]⟩ : Shape).Idx → EReal) : (⟨3, ![n, 3, 3]⟩ : Shape).Idx → EReal :=
  fun i => entry (uv (ix2 (i 0) 0)) (uv (ix2 (i 0) 1)) (uv (ix2 (i 0) 2))
    ⟨3 * (i 1).val + (i 2).val, by have h1 : (i 1).val < 3 := (i 1).isLt; have h2 : (i 2).val < 3 := (i 2).isLt; omega⟩

end Cert.ExpMap

end
-- ==== Proof.LibJoinUnit.lean ====
/-
  Joins of one-column (and one-row) pieces, read at an index.

  Nine results computed column-wise and laid side by side make an [n, 9] array; three make an [n, 3] array; three
  [n, 1, k] slabs laid along their unit axis make an [n, 3, k] array. Read at an index, such a join is the piece the
  joined coordinate names, at the index with that coordinate replaced by 0. These are the library's general statement
  `concatenate_apply_piece` at the literal lists of three and nine pieces of one shape whose extent on the joined axis is 1,
  for any extents n and k and any element type.
-/
import Idealize.ShloMosaic.Lib.Pipeline.Value
import Idealize.ShloMosaic.Lib.ValueIdx

noncomputable section

namespace Cert.JoinUnit

open Idealize.ShloMosaic Idealize.ShloMosaic.ValueIdx

variable {α : Type}

/-- An [n, 1] column. -/
abbrev Col (n : Nat) : Shape := ⟨2, ![n, 1]⟩
/-- An [n, k] array. -/
abbrev Arr (n k : Nat) : Shape := ⟨2, ![n, k]⟩
/-- An [n, 1, k] slab. -/
abbrev Slab (n k : Nat) : Shape := ⟨3, ![n, 1, k]⟩
/-- An [n, j, k] array. -/
abbrev Arr3 (n j k : Nat) : Shape := ⟨3, ![n, j, k]⟩

/-- Off axis 1, the index (p, q) of an [n, k] array and the index (p, 0) of a column agree. -/
theorem same_row {n k : Nat} (p : Fin n) (q : Fin k) :
    ∀ b : Fin (Col n).rank, b.cast (rfl : (Col n).rank = (Arr n k).rank) ≠ (1 : Fin (Arr n k).rank) →
      ((ix2 p (0 : Fin 1)) b).val = ((ix2 p q) (b.cast (rfl : (Col n).rank = (Arr n k).rank))).val :=
  fun b hb => match b, hb with
    | ⟨0, _⟩, _ => rfl
    | ⟨1, _⟩, hb => absurd rfl hb

/-- Off axis 1, the index (r, a, b) of an [n, j, k] array and the index (r, 0, b) of a slab agree. -/
theorem same_outer {n j k : Nat} (r : Fin n) (a : Fin j) (b : Fin k) :
    ∀ d : Fin (Slab n k).rank, d.cast (rfl : (Slab n k).rank = (Arr3 n j k).rank) ≠ (1 : Fin (Arr3 n j k).rank) →
      ((ix3 r (0 : Fin 1) b) d).val = ((ix3 r a b) (d.cast (rfl : (Slab n k).rank = (Arr3 n j k).rank))).val :=
  fun d hd => match d, hd with
    | ⟨0, _⟩, _ => rfl
    | ⟨1, _⟩, hd => absurd rfl hd
    | ⟨2, _⟩, _ => rfl

/-- THREE COLUMNS side by side, read at (p, q): column q at (p, 0). -/
theorem join3_apply {n : Nat} (c0 c1 c2 : (Col n).Idx → α)
    (h : Shape.Concatenates [Col n, Col n, Col n] (Arr n 3) 1) (p : Fin n) (q : Fin 3) :
    concatenate (Arr n 3) 1 [⟨Col n, c0⟩, ⟨Col n, c1⟩, ⟨Col n, c2⟩] h (ix2 p q) = (![c0, c1, c2] q) (ix2 p 0) := by
  match q with
  | ⟨0, _⟩ => exact concatenate_apply_piece (t := Arr n 3) (1 : Fin 2) [⟨Col n, c0⟩, ⟨Col n, c1⟩, ⟨Col n, c2⟩] h (ix2 p _) 0 (by show (0 : Nat) < 3; omega) (Col n) c0 rfl rfl 0 rfl (ix2 p 0) (same_row p _) rfl
  | ⟨1, _⟩ => exact concatenate_apply_piece (t := Arr n 3) (1 : Fin 2) [⟨Col n, c0⟩, ⟨Col n, c1⟩, ⟨Col n, c2⟩] h (ix2 p _) 1 (by show (1 : Nat) < 3; omega) (Col n) c1 rfl rfl 1 rfl (ix2 p 0) (same_row p _) rfl
  | ⟨2, _⟩ => exact concatenate_apply_piece (t := Arr n 3) (1 : Fin 2) [⟨Col n, c0⟩, ⟨Col n, c1⟩, ⟨Col n, c2⟩] h (ix2 p _) 2 (by show (2 : Nat) < 3; omega) (Col n) c2 rfl rfl 2 rfl (ix2 p 0) (same_row p _) rfl

/-- NINE COLUMNS side by side, read at (p, q): column q at (p, 0). -/
theorem join9_apply {n : Nat} (c0 c1 c2 c3 c4 c5 c6 c7 c8 : (Col n).Idx → α)
    (h : Shape.Concatenates [Col n, Col n, Col n, Col n, Col n, Col n, Col n, Col n, Col n] (Arr n 9) 1) (p : Fin n) (q : Fin 9) :
    concatenate (Arr n 9) 1 [⟨Col n, c0⟩, ⟨Col n, c1⟩, ⟨Col n, c2⟩, ⟨Col n, c3⟩, ⟨Col n, c4⟩, ⟨Col n, c5⟩, ⟨Col n, c6⟩, ⟨Col n, c7⟩, ⟨Col n, c8⟩] h (ix2 p q)
      = (![c0, c1, c2, c3, c4, c5, c6, c7, c8] q) (ix2 p 0) := by
  match q with
  | ⟨0, _⟩ => exact concatenate_apply_piece (t := Arr n 9) (1 : Fin 2) [⟨Col n, c0⟩, ⟨Col n, c1⟩, ⟨Col n, c2⟩, ⟨Col n, c3⟩, ⟨Col n, c4⟩, ⟨Col n, c5⟩, ⟨Col n, c6⟩, ⟨Col n, c7⟩, ⟨Col n, c8⟩] h (ix2 p _) 0 (by show (0 : Nat) < 9; omega) (Col n) c0 rfl rfl 0 rfl (ix2 p 0) (same_row p _) rfl
  | ⟨1, _⟩ => exact concatenate_apply_piece (t := Arr n 9) (1 : Fin 2) [⟨Col n, c0⟩, ⟨Col n, c1⟩, ⟨Col n, c2⟩, ⟨Col n, c3⟩, ⟨Col n, c4⟩, ⟨Col n, c5⟩, ⟨Col n, c6⟩, ⟨Col n, c7⟩, ⟨Col n, c8⟩] h (ix2 p _) 1 (by show (1 : Nat) < 9; omega) (Col n) c1 rfl rfl 1 rfl (ix2 p 0) (same_row p _) rfl
  | ⟨2, _⟩ => exact concatenate_apply_piece (t := Arr n 9) (1 : Fin 2) [⟨Col n, c0⟩, ⟨Col n, c1⟩, ⟨Col n, c2⟩, ⟨Col n, c3⟩, ⟨Col n, c4⟩, ⟨Col n, c5⟩, ⟨Col n, c6⟩, ⟨Col n, c7⟩, ⟨Col n, c8⟩] h (ix2 p _) 2 (by show (2 : Nat) < 9; omega) (Col n) c2 rfl rfl 2 rfl (ix2 p 0) (same_row p _) rfl
  | ⟨3, _⟩ => exact concatenate_apply_piece (t := Arr n 9) (1 : Fin 2) [⟨Col n, c0⟩, ⟨Col n, c1⟩, ⟨Col n, c2⟩, ⟨Col n, c3⟩, ⟨Col n, c4⟩, ⟨Col n, c5⟩, ⟨Col n, c6⟩, ⟨Col n, c7⟩, ⟨Col n, c8⟩] h (ix2 p _) 3 (by show (3 : Nat) < 9; omega) (Col n) c3 rfl rfl 3 rfl (ix2 p 0) (same_row p _) rfl
  | ⟨4, _⟩ => exact concatenate_apply_piece (t := Arr n 9) (1 : Fin 2) [⟨Col n, c0⟩, ⟨Col n, c1⟩, ⟨Col n, c2⟩, ⟨Col n, c3⟩, ⟨Col n, c4⟩, ⟨Col n, c5⟩, ⟨Col n, c6⟩, ⟨Col n, c7⟩, ⟨Col n, c8⟩] h (ix2 p _) 4 (by show (4 : Nat) < 9; omega) (Col n) c4 rfl rfl 4 rfl (ix2 p 0) (same_row p _) rfl
  | ⟨5, _⟩ => exact concatenate_apply_piece (t := Arr n 9) (1 : Fin 2) [⟨Col n, c0⟩, ⟨Col n, c1⟩, ⟨Col n, c2⟩, ⟨Col n, c3⟩, ⟨Col n, c4⟩, ⟨Col n, c5⟩, ⟨Col n, c6⟩, ⟨Col n, c7⟩, ⟨Col n, c8⟩] h (ix2 p _) 5 (by show (5 : Nat) < 9; omega) (Col n) c5 rfl rfl 5 rfl (ix2 p 0) (same_row p _) rfl
  | ⟨6, _⟩ => exact concatenate_apply_piece (t := Arr n 9) (1 : Fin 2) [⟨Col n, c0⟩, ⟨Col n, c1⟩, ⟨Col n, c2⟩, ⟨Col n, c3⟩, ⟨Col n, c4⟩, ⟨Col n, c5⟩, ⟨Col n, c6⟩, ⟨Col n, c7⟩, ⟨Col n, c8⟩] h (ix2 p _) 6 (by show (6 : Nat) < 9; omega) (Col n) c6 rfl rfl 6 rfl (ix2 p 0) (same_row p _) rfl
  | ⟨7, _⟩ => exact concatenate_apply_piece (t := Arr n 9) (1 : Fin 2) [⟨Col n, c0⟩, ⟨Col n, c1⟩, ⟨Col n, c2⟩, ⟨Col n, c3⟩, ⟨Col n, c4⟩, ⟨Col n, c5⟩, ⟨Col n, c6⟩, ⟨Col n, c7⟩, ⟨Col n, c8⟩] h (ix2 p _) 7 (by show (7 : Nat) < 9; omega) (Col n) c7 rfl rfl 7 rfl (ix2 p 0) (same_row p _) rfl
  | ⟨8, _⟩ => exact concatenate_apply_piece (t := Arr n 9) (1 : Fin 2) [⟨Col n, c0⟩, ⟨Col n, c1⟩, ⟨Col n, c2⟩, ⟨Col n, c3⟩, ⟨Col n, c4⟩, ⟨Col n, c5⟩, ⟨Col n, c6⟩, ⟨Col n, c7⟩, ⟨Col n, c8⟩] h (ix2 p _) 8 (by show (8 : Nat) < 9; omega) (Col n) c8 rfl rfl 8 rfl (ix2 p 0) (same_row p _) rfl

/-- THREE SLABS laid along their unit axis, read at (r, a, b): slab a at (r, 0, b). -/
theorem stack3_apply {n k : Nat} (s0 s1 s2 : (Slab n k).Idx → α)
    (h : Shape.Concatenates [Slab n k, Slab n k, Slab n k] (Arr3 n 3 k) 1) (r : Fin n) (a : Fin 3) (b : Fin k) :
    concatenate (Arr3 n 3 k) 1 [⟨Slab n k, s0⟩, ⟨Slab n k, s1⟩, ⟨Slab n k, s2⟩] h (ix3 r a b) = (![s0, s1, s2] a) (ix3 r 0 b) := by
  match a with
  | ⟨0, _⟩ => exact concatenate_apply_piece (t := Arr3 n 3 k) (1 : Fin 3) [⟨Slab n k, s0⟩, ⟨Slab n k, s1⟩, ⟨Slab n k, s2⟩] h (ix3 r _ b) 0 (by show (0 : Nat) < 3; omega) (Slab n k) s0 rfl rfl 0 rfl (ix3 r 0 b) (same_outer r _ b) rfl
  | ⟨1, _⟩ => exact concatenate_apply_piece (t := Arr3 n 3 k) (1 : Fin 3) [⟨Slab n k, s0⟩, ⟨Slab n k, s1⟩, ⟨Slab n k, s2⟩] h (ix3 r _ b) 1 (by show (1 : Nat) < 3; omega) (Slab n k) s1 rfl rfl 1 rfl (ix3 r 0 b) (same_outer r _ b) rfl
  | ⟨2, _⟩ => exact concatenate_apply_piece (t := Arr3 n 3 k) (1 : Fin 3) [⟨Slab n k, s0⟩, ⟨Slab n k, s1⟩, ⟨Slab n k, s2⟩] h (ix3 r _ b) 2 (by show (2 : Nat) < 3; omega) (Slab n k) s2 rfl rfl 2 rfl (ix3 r 0 b) (same_outer r _ b) rfl

end Cert.JoinUnit

end
-- ==== Proof.KernelPoint.lean ====
/-
  One grid point of the kernel, read at an index.

  The kernel's block is 8000 twists (rows) by 3 components (columns x, y, w). Its body cuts the three columns out,
  computes every coefficient column-wise, and joins nine columns side by side into the 8000 × 9 output block. Read at
  row p and column q, that block is entry q of the exponential map of the twist in row p: the nine-fold join picks
  column q's piece, and each piece is pointwise arithmetic of the three input columns at row p.
  The only place the two spellings of the map differ is a negation, which the body writes `0 − a`.
-/
import proofs.«161196_j37065567764675_1_alg».proof.Proof.Gen.KernelIdeal.Skeleton
import proofs.«161196_j37065567764675_1_alg».proof.Proof.ExpMap
import proofs.«161196_j37065567764675_1_alg».proof.Proof.LibJoinUnit
import Idealize.ShloMosaic.Lib.Pipeline.Value
import Idealize.ShloMosaic.Lib.ValueIdx

noncomputable section

namespace Cert.KernelIdeal.PointValue

open Idealize.ShloMosaic Idealize.ShloMosaic.ValueIdx Cert.KernelIdeal Cert.KernelIdeal.Gen

/-- Column 0 of a block, as a one-column block: row r holds the block's (r, 0). -/
theorem column0 {α : Type} (x0 : S8000x3.Idx → α) (h : S8000x3.Slices ![0, 0] S8000x1) :
    extractStridedSlice S8000x1 ![0, 0] x0 h = fun i => x0 (ix2 (i 0) (0 : Fin 3)) := by
  funext i
  exact extractStridedSlice_apply ![0, 0] x0 h i (ix2 (i 0) (0 : Fin 3)) (fun a => match a with
    | ⟨0, _⟩ => by show (i 0).val = 0 + (i 0).val; omega
    | ⟨1, _⟩ => by show (0 : Nat) = 0 + (i 1).val; have h1 : (i 1).val < 1 := (i 1).isLt; omega)

/-- Column 1 likewise. -/
theorem column1 {α : Type} (x0 : S8000x3.Idx → α) (h : S8000x3.Slices ![0, 1] S8000x1) :
    extractStridedSlice S8000x1 ![0, 1] x0 h = fun i => x0 (ix2 (i 0) (1 : Fin 3)) := by
  funext i
  exact extractStridedSlice_apply ![0, 1] x0 h i (ix2 (i 0) (1 : Fin 3)) (fun a => match a with
    | ⟨0, _⟩ => by show (i 0).val = 0 + (i 0).val; omega
    | ⟨1, _⟩ => by show (1 : Nat) = 1 + (i 1).val; have h1 : (i 1).val < 1 := (i 1).isLt; omega)

/-- Column 2 likewise. -/
theorem column2 {α : Type} (x0 : S8000x3.Idx → α) (h : S8000x3.Slices ![0, 2] S8000x1) :
    extractStridedSlice S8000x1 ![0, 2] x0 h = fun i => x0 (ix2 (i 0) (2 : Fin 3)) := by
  funext i
  exact extractStridedSlice_apply ![0, 2] x0 h i (ix2 (i 0) (2 : Fin 3)) (fun a => match a with
    | ⟨0, _⟩ => by show (i 0).val = 0 + (i 0).val; omega
    | ⟨1, _⟩ => by show (2 : Nat) = 2 + (i 1).val; have h1 : (i 1).val < 1 := (i 1).isLt; omega)

/-- THE BLOCK AT AN INDEX: row p, column q of what the body stores is entry q of the map of the twist in row p. -/
theorem pay_apply (x0 : Vec Ideal S8000x3 .f32) (p : Fin 8000) (q : Fin 9) :
    k0_pay1 (F := Ideal) x0 (ix2 p q) = Cert.ExpMap.entry (x0 (ix2 p 0)) (x0 (ix2 p 1)) (x0 (ix2 p 2)) q := by
  unfold k0_pay1
  rw [column0, column1, column2]
  refine (Cert.JoinUnit.join9_apply _ _ _ _ _ _ _ _ _ _ p q).trans ?_
  match q with
  | ⟨0, _⟩ => rfl
  | ⟨1, _⟩ =>
    show (Cert.ExpMap.zero - Cert.ExpMap.cA (x0 (ix2 p 2))) * x0 (ix2 p 2) = (-(Cert.ExpMap.cA (x0 (ix2 p 2)))) * x0 (ix2 p 2)
    rw [Cert.ExpMap.zero_sub]
  | ⟨2, _⟩ =>
    show Cert.ExpMap.trDiag (x0 (ix2 p 2)) * x0 (ix2 p 0)
        + (Cert.ExpMap.zero - Cert.ExpMap.cB (x0 (ix2 p 2))) * x0 (ix2 p 2) * x0 (ix2 p 1)
      = Cert.ExpMap.trDiag (x0 (ix2 p 2)) * x0 (ix2 p 0) + (-(Cert.ExpMap.cB (x0 (ix2 p 2)))) * x0 (ix2 p 2) * x0 (ix2 p 1)
    rw [Cert.ExpMap.zero_sub]
  | ⟨3, _⟩ => rfl
  | ⟨4, _⟩ => rfl
  | ⟨5, _⟩ => rfl
  | ⟨6, _⟩ => rfl
  | ⟨7, _⟩ => rfl
  | ⟨8, _⟩ => rfl

end Cert.KernelIdeal.PointValue

end
-- ==== Proof.KernelWhole.lean ====
/-
  The kernel's whole result.

  The grid has 500 points; point t reads rows 8000·t … 8000·t + 7999 of the [4000000, 3] input (all three columns) and
  writes the same rows of the [4000000, 9] output (all nine columns). Row by row the block it writes is the exponential
  map of the twist in that row, so what point t writes back is block t of the array `ExpMap.flat` of the input; the 500
  blocks tile the output, so after the region the output array IS `ExpMap.flat` of the input. The one host operation
  after the region reshapes [4000000, 9] to [4000000, 3, 3]: position 9·r + 3·a + b both ways, which is `ExpMap.mat`.
-/
import proofs.«161196_j37065567764675_1_alg».proof.Proof.Gen.KernelIdeal.Frame
import proofs.«161196_j37065567764675_1_alg».proof.Proof.KernelPoint
import Idealize.ShloMosaic.Lib.Pipeline.Value
import Idealize.ShloMosaic.Lib.StableHlo.Run

set_option maxRecDepth 16384

noncomputable section

namespace Cert.KernelIdeal.WholeValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The body's accesses start at the origin of their buffers. -/
theorem origin : (![0, 0] : Fin 2 → Nat) = fun _ => 0 := funext fun a => by fin_cases a <;> rfl

/-- The two index maps, decided over the 500 points: both windows sit at block row t, block column 0. -/
theorem index_facts : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, win0_0.index t (0 : Fin 2) = t.val ∧ win0_0.index t (1 : Fin 2) = 0
    ∧ win0_1.index t (0 : Fin 2) = t.val ∧ win0_1.index t (1 : Fin 2) = 0)

/-- The input array as the region finds it, at its literal type. -/
abbrev uv (c : Dev nD) : S4000000x3.Idx → EReal := V m c main_arg0

/-- WHAT POINT t WRITES BACK is block t of the map of the whole input. -/
theorem flushed_eq (c : Dev nD) (t : Fin cfg0.N) :
    (dats m 0 c).flushed 1 t = ((cfg0.win 1).blk t).view.read (Elt Ideal) (Cert.ExpMap.flat (n := 4000000) (uv m c)) := by
  show (cfg0.win 1).cut (grid0.coords t) ((dats m 0 c).after 1 t) = _
  rw [after0_1]
  unfold out0_1
  rw [View.canon_unit_zero origin]
  simp only [View.ld_unit_zero (S := S8000x3) origin]
  obtain ⟨e0, e1, e2, e3⟩ := index_facts t
  funext j
  obtain ⟨p, q, rfl⟩ : ∃ (p : Fin 8000) (q : Fin 9), j = ix2 p q := ⟨j 0, j 1, eq_ix2 j⟩
  show k0_pay1 (F := Ideal) (iblk m c 0 t) (ix2 p q) = Cert.ExpMap.flat (n := 4000000) (uv m c) (((cfg0.win 1).blk t).view.emb (ix2 p q))
  refine (Cert.KernelIdeal.PointValue.pay_apply (iblk m c 0 t) p q).trans ?_
  have hrow : ∀ k : Fin 3, iblk m c 0 t (ix2 p k) = uv m c (ix2 ((((cfg0.win 1).blk t).view.emb (ix2 p q)) 0) k) := by
    intro k
    show V m c main_arg0 (((cfg0.win 0).blk t).view.emb (ix2 p k)) = V m c main_arg0 (ix2 ((((cfg0.win 1).blk t).view.emb (ix2 p q)) 0) k)
    refine congrArg (V m c main_arg0) (funext fun a => Fin.ext ?_)
    match a with
    | ⟨0, _⟩ => show win0_0.index t (0 : Fin 2) * 8000 + 1 * p.val = win0_1.index t (0 : Fin 2) * 8000 + 1 * p.val; omega
    | ⟨1, _⟩ => show win0_0.index t (1 : Fin 2) * 3 + 1 * k.val = k.val; omega
  have hcol : (((cfg0.win 1).blk t).view.emb (ix2 p q)) 1 = q :=
    Fin.ext (by show win0_1.index t (1 : Fin 2) * 9 + 1 * q.val = q.val; omega)
  unfold Cert.ExpMap.flat
  rw [hrow 0, hrow 1, hrow 2, hcol]

/-- An index of the output array is in point t's block iff each coordinate is in the block's range on its axis. -/
theorem mem_blk (t : Fin cfg0.N) (i : S4000000x9.Idx) :
    i ∈ ((cfg0.win 1).blk t).view.set ↔ ∀ a : Fin 2, win0_1.index t a * S8000x9.size a ≤ (i a).val ∧ (i a).val < win0_1.index t a * S8000x9.size a + S8000x9.size a := by
  show i ∈ ((View.whole main_v0).slice (win0_1.rect t)).set ↔ _
  rw [View.set_slice_whole, Rect.mem_set_unit]
  exact Iff.rfl

/-- THE BLOCKS TILE THE OUTPUT: row r lies in the block of point r / 8000. -/
theorem cover (i : S4000000x9.Idx) : ∃ t : Fin cfg0.N, (cfg0.win 1).flush t = true ∧ i ∈ ((cfg0.win 1).blk t).view.set := by
  have hi0 : (i 0).val < 4000000 := (i 0).isLt
  have hi1 : (i 1).val < 9 := (i 1).isLt
  have hN : cfg0.N = 500 := N_0
  have ht : (i 0).val / 8000 < cfg0.N := by rw [hN]; omega
  obtain ⟨e0, e1, e2, e3⟩ := index_facts ⟨(i 0).val / 8000, ht⟩
  refine ⟨⟨(i 0).val / 8000, ht⟩, flush0_1 _, ?_⟩
  rw [mem_blk]
  intro a
  match a with
  | ⟨0, _⟩ =>
    show win0_1.index ⟨(i 0).val / 8000, ht⟩ (0 : Fin 2) * 8000 ≤ (i 0).val ∧ (i 0).val < win0_1.index ⟨(i 0).val / 8000, ht⟩ (0 : Fin 2) * 8000 + 8000
    rw [e2]
    show (i 0).val / 8000 * 8000 ≤ (i 0).val ∧ (i 0).val < (i 0).val / 8000 * 8000 + 8000
    omega
  | ⟨1, _⟩ =>
    show win0_1.index ⟨(i 0).val / 8000, ht⟩ (1 : Fin 2) * 9 ≤ (i 1).val ∧ (i 1).val < win0_1.index ⟨(i 0).val / 8000, ht⟩ (1 : Fin 2) * 9 + 9
    rw [e3]
    omega

/-- THE OUTPUT ARRAY after the region is the map of the whole input, row by row. -/
theorem final (c : Dev nD) : (dats m 0 c).arrAt 1 cfg0.N = Cert.ExpMap.flat (n := 4000000) (uv m c) :=
  (dats m 0 c).arrAt_eq_of_cover 1 (Cert.ExpMap.flat (n := 4000000) (uv m c)) (fun t _ => flushed_eq m c t) cover

/-- The reshape [4000000, 9] → [4000000, 3, 3] of the flat map is the map as matrices: (r, a, b) sits at row-major
    position 9·r + 3·a + b, which is (r, 3·a + b) of the flat array. -/
theorem reshape_flat (x : S4000000x3.Idx → EReal) (h : S4000000x9.ShapeCasts S4000000x3x3) :
    shapeCast S4000000x3x3 (Cert.ExpMap.flat (n := 4000000) x) h = Cert.ExpMap.mat (n := 4000000) x := by
  funext i
  obtain ⟨r, a, b, rfl⟩ : ∃ (r : Fin 4000000) (a b : Fin 3), i = ix3 r a b := ⟨i 0, i 1, i 2, eq_ix3 i⟩
  have ha : a.val < 3 := a.isLt
  have hb : b.val < 3 := b.isLt
  refine (shapeCast_apply (Cert.ExpMap.flat (n := 4000000) x) h (ix3 r a b) (ix2 r ⟨3 * a.val + b.val, by omega⟩) ?_).trans rfl
  rw [Shape.rowMajor_val_two, Shape.rowMajor_val_three]
  show r.val * 9 + (3 * a.val + b.val) = (r.val * 3 + a.val) * 3 + b.val
  omega

/-- THE RESULT: what the host line after the region leaves in @main's result is the map as matrices. -/
theorem result_eq (c : Dev nD) :
    Pipeline.afterTail₀ cfgs (dats m) 0 (V0 m) [hostOps1] c main_v1 = Cert.ExpMap.mat (n := 4000000) (uv m c) := by
  unfold Pipeline.afterTail₀
  show StableHlo.after hostOps1 _ (Proc.devRef .tc main_v1) = _
  after_results
  have e : Pipeline.withArrays (cfgs 0).spec c (V0 m c) (fun w => (dats m 0 c).arrAt w (cfgs 0).N) (Proc.devRef .tc main_v0)
      = Cert.ExpMap.flat (n := 4000000) (uv m c) :=
    (Pipeline.withArrays_arr spec0 launch0.win.arr_inj c _ _ 1).trans (final m c)
  show shapeCast S4000000x3x3 (Pipeline.withArrays (cfgs 0).spec c (V0 m c) (fun w => (dats m 0 c).arrAt w (cfgs 0).N) (Proc.devRef .tc main_v0)) _ = _
  rw [e]
  exact reshape_flat (uv m c) _

/-- @main's result buffer is none of the pipeline's two arrays, and it is not scoped. -/
theorem result_is_rest : main_v1 ∈ Pipeline.restRefs sig (cfgs 0).spec :=
  Pipeline.mem_restRefs_of main_v1 rfl (fun w => by fin_cases w <;> decide)

/-- THE RUN, READ: every weakly fair execution of the kernel's @main terminates with the result at the map of the input
    as matrices, and the input unchanged. -/
theorem run : θ_run defs (onTc (τ := τ) (main (F := Ideal))) ⟨m, fun _ => 0, ρ⟩ fun r => ∀ c : Dev nD,
      r.2.mem ((c : Thread nD τ).loc main_v1) = Cert.ExpMap.mat (n := 4000000) (m ((c : Thread nD τ).loc main_arg0))
      ∧ r.2.mem ((c : Thread nD τ).loc main_arg0) = m ((c : Thread nD τ).loc main_arg0) :=
  (θ_run defs _ _).mono (fun r h c => ⟨((h c).2 main_v1 result_is_rest).trans (result_eq m c),
      ((h c).1 0).trans (((dats m 0 c).arrAt_in 0 rfl _).trans ((A_eq m c 0).trans (V_main_arg0 m c)))⟩)
    (run_main m ρ)

end Cert.KernelIdeal.WholeValue

end
-- ==== Proof.ReferencePoint.lean ====
/-
  The reference, read at an index.

  The reference cuts the three columns x, y, w out of the [4000000, 3] input as vectors of length 4000000, computes
  every coefficient on those vectors, lays each of the nine results out as a [4000000, 1] column, joins them three at a
  time into the rows of the matrix ([4000000, 3]), gives each row a unit middle axis ([4000000, 1, 3]) and joins the
  three rows along it into the [4000000, 3, 3] result. Read at (r, a, b) that is entry 3·a + b of the exponential map of
  the twist in row r: the outer join picks matrix row a, the inner one its column b, and what is left is pointwise
  arithmetic of the three input vectors at r.
-/
import proofs.«161196_j37065567764675_1_alg».proof.Proof.Gen.ReferenceIdeal.Read
import proofs.«161196_j37065567764675_1_alg».proof.Proof.ExpMap
import proofs.«161196_j37065567764675_1_alg».proof.Proof.LibJoinUnit
import Idealize.ShloMosaic.Lib.Pipeline.Value
import Idealize.ShloMosaic.Lib.ValueIdx

noncomputable section

namespace Cert.ReferenceIdeal.PointValue

open Idealize.ShloMosaic Idealize.ShloMosaic.ValueIdx Cert.ReferenceIdeal Cert.ReferenceIdeal.Read Cert.ExpMap

variable (x0 : (⟨S4000000x3, .f32⟩ : BufTy).Contents (Elt Ideal))

/-! ## The three input vectors -/

/-- The first vector at r is the input's (r, 0). -/
theorem x_at (i : S4000000.Idx) : val_main_v1 (F := Ideal) x0 i = x0 (ix2 (i 0) (0 : Fin 3)) := by
  rw [val_main_v1_apply, val_main_v0_apply]
  exact congrArg x0 (funext fun a => Fin.ext (match a with
    | ⟨0, _⟩ => Nat.div_one _
    | ⟨1, _⟩ => rfl))

/-- The second vector at r is the input's (r, 1). -/
theorem y_at (i : S4000000.Idx) : val_main_v3 (F := Ideal) x0 i = x0 (ix2 (i 0) (1 : Fin 3)) := by
  rw [val_main_v3_apply, val_main_v2_apply]
  exact congrArg x0 (funext fun a => Fin.ext (match a with
    | ⟨0, _⟩ => Nat.div_one _
    | ⟨1, _⟩ => rfl))

/-- The third vector at r is the input's (r, 2). -/
theorem w_at (i : S4000000.Idx) : val_main_v5 (F := Ideal) x0 i = x0 (ix2 (i 0) (2 : Fin 3)) := by
  rw [val_main_v5_apply, val_main_v4_apply]
  exact congrArg x0 (funext fun a => Fin.ext (match a with
    | ⟨0, _⟩ => Nat.div_one _
    | ⟨1, _⟩ => rfl))

/-! ## The nine coefficient vectors, each pointwise arithmetic of the three -/

theorem rotDiag_at (i : S4000000.Idx) : val_main_v25 (F := Ideal) x0 i = rotDiag (val_main_v5 (F := Ideal) x0 i) := rfl
theorem rotUpper_at (i : S4000000.Idx) : val_main_v27 (F := Ideal) x0 i = rotUpper (val_main_v5 (F := Ideal) x0 i) := rfl
theorem rotLower_at (i : S4000000.Idx) : val_main_v28 (F := Ideal) x0 i = rotLower (val_main_v5 (F := Ideal) x0 i) := rfl
theorem rotDiag'_at (i : S4000000.Idx) : val_main_v31 (F := Ideal) x0 i = rotDiag (val_main_v5 (F := Ideal) x0 i) := rfl
theorem trX_at (i : S4000000.Idx) : val_main_v43 (F := Ideal) x0 i
    = trX (val_main_v1 (F := Ideal) x0 i) (val_main_v3 (F := Ideal) x0 i) (val_main_v5 (F := Ideal) x0 i) := rfl
theorem trY_at (i : S4000000.Idx) : val_main_v46 (F := Ideal) x0 i
    = trY (val_main_v1 (F := Ideal) x0 i) (val_main_v3 (F := Ideal) x0 i) (val_main_v5 (F := Ideal) x0 i) := rfl
theorem zero_at (i : S4000000.Idx) : val_main_v47 (F := Ideal) i = zero := rfl
theorem one_at (i : S4000000.Idx) : val_main_v48 (F := Ideal) i = one := rfl

/-! ## The rows of the matrix -/

/-- Matrix row 0 at (r, b): entries 0, 1, 2 of the map. -/
theorem row0_at (r : Fin 4000000) (b : Fin 3) :
    val_main_v52 (F := Ideal) x0 (ix2 r b)
      = entry (x0 (ix2 r 0)) (x0 (ix2 r 1)) (x0 (ix2 r 2)) ⟨b.val, by have := b.isLt; omega⟩ := by
  unfold val_main_v52
  refine (Cert.JoinUnit.join3_apply _ _ _ _ r b).trans ?_
  match b with
  | ⟨0, _⟩ => show val_main_v49 (F := Ideal) x0 (ix2 r 0) = _; rw [val_main_v49_apply, rotDiag_at, w_at]; rfl
  | ⟨1, _⟩ => show val_main_v50 (F := Ideal) x0 (ix2 r 0) = _; rw [val_main_v50_apply, rotUpper_at, w_at]; rfl
  | ⟨2, _⟩ => show val_main_v51 (F := Ideal) x0 (ix2 r 0) = _; rw [val_main_v51_apply, trX_at, x_at, y_at, w_at]; rfl

/-- Matrix row 1 at (r, b): entries 3, 4, 5. -/
theorem row1_at (r : Fin 4000000) (b : Fin 3) :
    val_main_v56 (F := Ideal) x0 (ix2 r b)
      = entry (x0 (ix2 r 0)) (x0 (ix2 r 1)) (x0 (ix2 r 2)) ⟨3 + b.val, by have := b.isLt; omega⟩ := by
  unfold val_main_v56
  refine (Cert.JoinUnit.join3_apply _ _ _ _ r b).trans ?_
  match b with
  | ⟨0, _⟩ => show val_main_v53 (F := Ideal) x0 (ix2 r 0) = _; rw [val_main_v53_apply, rotLower_at, w_at]; rfl
  | ⟨1, _⟩ => show val_main_v54 (F := Ideal) x0 (ix2 r 0) = _; rw [val_main_v54_apply, rotDiag'_at, w_at]; rfl
  | ⟨2, _⟩ => show val_main_v55 (F := Ideal) x0 (ix2 r 0) = _; rw [val_main_v55_apply, trY_at, x_at, y_at, w_at]; rfl

/-- Matrix row 2 at (r, b): entries 6, 7, 8, the constants 0, 0, 1. -/
theorem row2_at (r : Fin 4000000) (b : Fin 3) (x y w : EReal) :
    val_main_v60 (F := Ideal) (ix2 r b) = entry x y w ⟨6 + b.val, by have := b.isLt; omega⟩ := by
  unfold val_main_v60
  refine (Cert.JoinUnit.join3_apply _ _ _ _ r b).trans ?_
  match b with
  | ⟨0, _⟩ => show val_main_v57 (F := Ideal) (ix2 r 0) = _; rw [val_main_v57_apply, zero_at]; rfl
  | ⟨1, _⟩ => show val_main_v58 (F := Ideal) (ix2 r 0) = _; rw [val_main_v58_apply, zero_at]; rfl
  | ⟨2, _⟩ => show val_main_v59 (F := Ideal) (ix2 r 0) = _; rw [val_main_v59_apply, one_at]; rfl

/-! ## The whole result -/

/-- A slab's (r, 0, b) comes from its row array's (r, b): the unit middle axis is dropped. -/
theorem drop_unit_0 (r : Fin 4000000) (b : Fin 3) : idx_main_v61 (ix3 r (0 : Fin 1) b) = ix2 r b :=
  funext fun a => match a with | ⟨0, _⟩ => rfl | ⟨1, _⟩ => rfl
theorem drop_unit_1 (r : Fin 4000000) (b : Fin 3) : idx_main_v62 (ix3 r (0 : Fin 1) b) = ix2 r b :=
  funext fun a => match a with | ⟨0, _⟩ => rfl | ⟨1, _⟩ => rfl
theorem drop_unit_2 (r : Fin 4000000) (b : Fin 3) : idx_main_v63 (ix3 r (0 : Fin 1) b) = ix2 r b :=
  funext fun a => match a with | ⟨0, _⟩ => rfl | ⟨1, _⟩ => rfl

/-- THE REFERENCE AT AN INDEX: (r, a, b) of its result is entry 3·a + b of the map of the twist in row r. -/
theorem ref_apply (r : Fin 4000000) (a b : Fin 3) :
    val_main_v64 (F := Ideal) x0 (ix3 r a b) = Cert.ExpMap.mat x0 (ix3 r a b) := by
  unfold val_main_v64
  refine (Cert.JoinUnit.stack3_apply _ _ _ _ r a b).trans ?_
  match a with
  | ⟨0, _⟩ =>
    show val_main_v61 (F := Ideal) x0 (ix3 r 0 b) = _
    rw [val_main_v61_apply, drop_unit_0]
    refine (row0_at x0 r b).trans ?_
    exact congrArg _ (Fin.ext (by show b.val = 3 * 0 + b.val; omega))
  | ⟨1, _⟩ =>
    show val_main_v62 (F := Ideal) x0 (ix3 r 0 b) = _
    rw [val_main_v62_apply, drop_unit_1]
    refine (row1_at x0 r b).trans ?_
    exact congrArg _ (Fin.ext (by show 3 + b.val = 3 * 1 + b.val; omega))
  | ⟨2, _⟩ =>
    show val_main_v63 (F := Ideal) (ix3 r 0 b) = _
    rw [val_main_v63_apply, drop_unit_2]
    refine (row2_at r b (x0 (ix2 r 0)) (x0 (ix2 r 1)) (x0 (ix2 r 2))).trans ?_
    exact congrArg _ (Fin.ext (by show 6 + b.val = 3 * 2 + b.val; omega))

/-- The reference's whole result is the map of every row. -/
theorem ref_eq : val_main_v64 (F := Ideal) x0 = Cert.ExpMap.mat x0 := by
  funext i
  obtain ⟨r, a, b, rfl⟩ : ∃ (r : Fin 4000000) (a b : Fin 3), i = ix3 r a b := ⟨i 0, i 1, i 2, eq_ix3 i⟩
  exact ref_apply x0 r a b

end Cert.ReferenceIdeal.PointValue

end
-- ==== Proof.lean ====
/-
  The SE(2) exponential map, computed by a pipelined kernel, against its array-language reference.

  Input: 4,000,000 twists (x, y, w), finite single-precision numbers. Output: for each twist the 3 × 3 matrix
    [[1 − B·w², −A·w, (1 − C·w²)·x − B·w·y], [A·w, 1 − B·w², B·w·x + (1 − C·w²)·y], [0, 0, 1]]
  with θ = √(w·w), A = sin θ / (θ + ε), B = (1 − cos θ) / (w·w + ε), C = (1 − A) / (w·w + ε), ε the single-precision
  number nearest 1e-5 (Proof/ExpMap.lean: `entry`, `flat`, `mat`).

  The kernel walks the rows 8000 at a time: a grid point cuts the three columns out of its block, evaluates the nine
  entries column-wise and joins them into an 8000 × 9 block (Proof/KernelPoint.lean); the blocks tile a [4000000, 9] array,
  which the host reshapes to [4000000, 3, 3] (Proof/KernelWhole.lean). The reference evaluates the same nine expressions
  on whole vectors of length 4,000,000 and stacks them twice (Proof/ReferencePoint.lean). Both results are `ExpMap.mat` of
  the input, entry by entry. The two texts apply the same operations to the same operands in the same order except for
  the two negations, `0 − a` in the kernel and `−a` in the reference, equal at every extended real; no algebraic law that
  needs finite operands is used, so the precondition is never opened.

  The kernel's idealization rewrote nothing (its ledger is empty), so `preserves` is trivial; the frames of the two
  kernel programs are the generated ones, and the reference's frame is its generated run with the result dropped.
-/
import proofs.«161196_j37065567764675_1_alg».proof.Defs
import proofs.«161196_j37065567764675_1_alg».proof.Proof.Gen.Kernel
import proofs.«161196_j37065567764675_1_alg».proof.Proof.Gen.Kernel.Skeleton
import proofs.«161196_j37065567764675_1_alg».proof.Proof.Gen.Kernel.Launch
import proofs.«161196_j37065567764675_1_alg».proof.Proof.Gen.Kernel.Points
import proofs.«161196_j37065567764675_1_alg».proof.Proof.Gen.Kernel.Frame
import proofs.«161196_j37065567764675_1_alg».proof.Proof.Gen.KernelIdeal
import proofs.«161196_j37065567764675_1_alg».proof.Proof.Gen.KernelIdeal.Skeleton
import proofs.«161196_j37065567764675_1_alg».proof.Proof.Gen.KernelIdeal.Launch
import proofs.«161196_j37065567764675_1_alg».proof.Proof.Gen.KernelIdeal.Points
import proofs.«161196_j37065567764675_1_alg».proof.Proof.Gen.KernelIdeal.Frame
import proofs.«161196_j37065567764675_1_alg».proof.Proof.Gen.ReferenceIdeal
import proofs.«161196_j37065567764675_1_alg».proof.Proof.Gen.Pre_finite_inputs
import proofs.«161196_j37065567764675_1_alg».proof.Proof.Gen.ReferenceIdeal.Run
import proofs.«161196_j37065567764675_1_alg».proof.Proof.Gen.ReferenceIdeal.Read
import proofs.«161196_j37065567764675_1_alg».proof.Proof.ExpMap
import proofs.«161196_j37065567764675_1_alg».proof.Proof.KernelWhole
import proofs.«161196_j37065567764675_1_alg».proof.Proof.ReferencePoint
import Idealize.ShloMosaic.Adequacy
import Idealize.ShloMosaic.Init

noncomputable section

namespace Cert.Proof

open Idealize.ShloMosaic Idealize.ShloMosaic.TcCoe Idealize.SL.Sem

/-- The word-level kernel runs and leaves its input alone. -/
theorem frame_kernel : Cert.frame_Kernel := fun m ρ _ => Cert.Kernel.Gen.frame m ρ

/-- So does the idealized kernel. -/
theorem frame_kernel_ideal : Cert.frame_KernelIdeal := fun m ρ _ => Cert.KernelIdeal.Gen.frame m ρ

/-- The reference runs and leaves its input alone: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- From inputs that agree, both programs end with the matrices of the exponential map of every row. -/
theorem algebraic : Cert.algebraic_KernelIdeal_ReferenceIdeal := by
  intro m ρ m' ρ' _ hagree
  refine ⟨fun c => Cert.ExpMap.mat (n := 4000000) (m ((c : Thread Cert.KernelIdeal.nD Cert.KernelIdeal.τ).loc Cert.KernelIdeal.main_arg0)),
    Cert.KernelIdeal.WholeValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v64_eq, Cert.ReferenceIdeal.PointValue.ref_eq, hagree c]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
